-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S128x1000 : Shape := ⟨2, ![128, 1000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S128x1000 : S_.BroadcastsInDim S128x1000 (![] : Fin 0 → Fin S128x1000.rank)
  reducesTo_S128x1000_S_d0_1 : S128x1000.ReducesTo [0, 1] S_

variable [Facts]

def fn {F : FTy → Type} [FloatOps F] (main_arg0 : FVec F S16384x1000 .f32) (main_arg1 : FVec F S128x1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S128x1000 .f32 := Host.absf main_arg1
  let main_cst_0 : FVec F S_ .f32 := constant S_ .f32 0x7F800000#32
  let main_v5 : FVec F S128x1000 .f32 := broadcastInDim S128x1000 ![] bcast_S_S128x1000 main_cst_0
  let main_v6 : IVec S128x1000 1 := cmpf .olt main_v4 main_v5
  let main_c_1 : IVec S_ 1 := constantI S_ 1 1#1
  let main_v7 : IVec S_ 1 := (fun x v => Host.reduce IntOp.andi x v reducesTo_S128x1000_S_d0_1 h_S_) main_v6 main_c_1
  let main_v8 : IVec S_ 1 := andi main_v3 main_v7
  main_v8
-- ==== Kernel.lean ====
abbrev S16384x1000 : Shape := ⟨2, ![16384, 1000]⟩
abbrev S128x1000 : Shape := ⟨2, ![128, 1000]⟩
abbrev S16384x128 : Shape := ⟨2, ![16384, 128]⟩
abbrev S512x1000 : Shape := ⟨2, ![512, 1000]⟩
abbrev S2048x128 : Shape := ⟨2, ![2048, 128]⟩
abbrev S512x128 : Shape := ⟨2, ![512, 128]⟩

abbrev nBuf : Space → Nat
  | .hbm => 3
  | .vmem => 11
  | .smem => 0
  | _ => 0

abbrev bufTy : (tb : Table) → Fin (tcTables nBuf tb) → BufTy
  | .hbm, ⟨0, _⟩ => ⟨S16384x1000, .f32⟩
  | .hbm, ⟨1, _⟩ => ⟨S128x1000, .f32⟩
  | .hbm, ⟨2, _⟩ => ⟨S16384x128, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S512x1000, .f32⟩
  | .local _ .vmem, ⟨5, _⟩ => ⟨S512x1000, .f32⟩
  | .local _ .vmem, ⟨6, _⟩ => ⟨S512x1000, .f32⟩
  | .local _ .vmem, ⟨7, _⟩ => ⟨S512x1000, .f32⟩
  | .local _ .vmem, ⟨8, _⟩ => ⟨S128x1000, .f32⟩
  | .local _ .vmem, ⟨9, _⟩ => ⟨S2048x128, .f32⟩
  | .local _ .vmem, ⟨10, _⟩ => ⟨S2048x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S512x1000_S512x1000_0_0 : ∀ a, (![0, 0] : Fin 2 → Nat) a + S512x1000.size a ≤ S512x1000.size a
  h_S512x1000 : 0 < S512x1000.numel
  inb_S128x1000_S128x1000_0_0 : ∀ a, (![0, 0] : Fin 2 → Nat) a + S128x1000.size a ≤ S128x1000.size a
  h_S128x1000 : 0 < S128x1000.numel
  inb_S2048x128_S512x128_0_0 : ∀ a, (![0, 0] : Fin 2 → Nat) a + S512x128.size a ≤ S2048x128.size a
  h_S512x128 : 0 < S512x128.numel
  inb_S2048x128_S512x128_512_0 : ∀ a, (![512, 0] : Fin 2 → Nat) a + S512x128.size a ≤ S2048x128.size a
  inb_S2048x128_S512x128_1024_0 : ∀ a, (![1024, 0] : Fin 2 → Nat) a + S512x128.size a ≤ S2048x128.size a
  inb_S2048x128_S512x128_1536_0 : ∀ a, (![1536, 0] : Fin 2 → Nat) a + S512x128.size a ≤ S2048x128.size a
  dot_S512x1000_S128x1000_S512x128_1_1_0_0_n_n_wf : DotDims.WF S512x1000 S128x1000 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S16384x1000.size a
  hwx0_0 : ∀ i : grid0.Coords, EltTy.bits .f32 = 32 ∨ (Rect.block (s := S16384x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S16384x1000.size a
  hwx0_1 : ∀ i : grid0.Coords, EltTy.bits .f32 = 32 ∨ (Rect.block (s := S16384x1000) S512x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1000.size a ≤ S16384x1000.size a
  hwx0_2 : ∀ i : grid0.Coords, EltTy.bits .f32 = 32 ∨ (Rect.block (s := S16384x1000) S512x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S16384x1000.size a
  hwx0_3 : ∀ i : grid0.Coords, EltTy.bits .f32 = 32 ∨ (Rect.block (s := S16384x1000) S512x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1000.size a ≤ S128x1000.size a
  hwx0_4 : ∀ i : grid0.Coords, EltTy.bits .f32 = 32 ∨ (Rect.block (s := S128x1000) S128x1000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S16384x128.size a
  hwx0_5 : ∀ i : grid0.Coords, EltTy.bits .f32 = 32 ∨ (Rect.block (s := S16384x128) S2048x128.size (cc0_transform_5 i) (hinb0_5 i)).WholeWords (EltTy.packing .f32)

variable [Facts₀]

def dot_S512x1000_S128x1000_S512x128_1_1_0_0_n_n : DotDims S512x1000 S128x1000 S512x128 where
  lhsContracting := [1]
  rhsContracting := [1]
  lhsNonContracting := [0]
  rhsNonContracting := [0]
  lhsBatch := []
  rhsBatch := []
  wf := dot_S512x1000_S128x1000_S512x128_1_1_0_0_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S512x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x1000.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S128x1000 : Shape := ⟨2, ![128, 1000]⟩
abbrev S1000x128 : Shape := ⟨2, ![1000, 128]⟩
abbrev S16384x128 : Shape := ⟨2, ![16384, 128]⟩

abbrev nBuf : Space → Nat
  | .hbm => 4
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S128x1000, .f32⟩
  | .hbm, ⟨2, _⟩ => ⟨S1000x128, .f32⟩
  | .hbm, ⟨3, _⟩ => ⟨S16384x128, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S128x1000_S1000x128_1_0 : S128x1000.Transposes [1, 0] S1000x128
  dot_S16384x1000_S1000x128_S16384x128_1_0_0_1_n_n_wf : DotDims.WF S16384x1000 S1000x128 S16384x128 [1] [0] [0] [1] [] []

variable [Facts₀]

def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf

class Facts : Prop extends Facts₀ where

variable [Facts]
-- ==== Proof.BitsBody.lean ====
/-
  The kernel, one grid point at a time, at any float instance. The grid has eight points; at point t the four input windows on the
  row matrix hold its row blocks 4t, 4t+1, 4t+2, 4t+3 (512 rows of 1000 entries each), the fifth window holds the whole
  weight matrix (128 rows of 1000 entries), and the body writes, for s = 0..3, the product of row block 4t+s with the
  transposed weights into rows 512 s .. 512 s + 511 of the 2048-row output block t. The four stores tile the output
  block, so what the block holds after the body is a function of the five input blocks alone. This module states that
  function, proves the body's triple by symbolic execution, and packages it as the pipeline's proof data: every input
  window leaves its block in place, the output window leaves the four products laid one under the other, nothing is
  owed, and the row matrix's array, read through four windows, is held a quarter share by each.
-/
import proofs.«102467_g50440095924883_cont_8to1_c_133_5_alg».proof.Proof.Gen.Kernel.Launch
import proofs.«102467_g50440095924883_cont_8to1_c_133_5_alg».proof.Proof.Gen.Kernel.Skeleton
import proofs.«102467_g50440095924883_cont_8to1_c_133_5_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- The program is the region alone, so the region finds every array as launched. -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not: a point
    that does not fetch has the block index of the point before (the weights' window is fetched once, at the first
    point, and keeps its one block). One statement per input window: a window's cut block is its block by computation
    at a literal window only. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S512x1000 := Rect.unit (s := S512x1000) ![0, 0] S512x1000.size inb_S512x1000_S512x1000_0_0
abbrev rW : Rect S128x1000 := Rect.unit (s := S128x1000) ![0, 0] S128x1000.size inb_S128x1000_S128x1000_0_0
abbrev rO0 : Rect S2048x128 := Rect.unit (s := S2048x128) ![0, 0] S512x128.size inb_S2048x128_S512x128_0_0
abbrev rO1 : Rect S2048x128 := Rect.unit (s := S2048x128) ![512, 0] S512x128.size inb_S2048x128_S512x128_512_0
abbrev rO2 : Rect S2048x128 := Rect.unit (s := S2048x128) ![1024, 0] S512x128.size inb_S2048x128_S512x128_1024_0
abbrev rO3 : Rect S2048x128 := Rect.unit (s := S2048x128) ![1536, 0] S512x128.size inb_S2048x128_S512x128_1536_0

/-! ## What the body leaves in the output block -/

/-- The output block after the body, from the five input blocks: its four stores, the last first; store s holds the
    product of the s-th row block with the transposed weights. -/
def outBlock (x0 x1 x2 x3 : Vec F S512x1000 .f32) (xw : Vec F S128x1000 .f32) : Vec F S2048x128 .f32 :=
  View.canon [⟨rO3, k0_pay4 (View.ld x3 rX) (View.ld xw rW)⟩, ⟨rO2, k0_pay3 (View.ld x2 rX) (View.ld xw rW)⟩,
    ⟨rO1, k0_pay2 (View.ld x1 rX) (View.ld xw rW)⟩, ⟨rO0, k0_pay1 (View.ld x0 rX) (View.ld xw rW)⟩]

/-- The four stores tile the 2048 rows in blocks of 512, so they cover the output block. -/
theorem outCover (p3 p2 p1 p0 : Vec F S512x128 .f32) (y : S2048x128.Idx) :
    ∃ pc ∈ ([⟨rO3, p3⟩, ⟨rO2, p2⟩, ⟨rO1, p1⟩, ⟨rO0, p0⟩] : List (View.Piece (Elt F) S2048x128 .f32)), y ∈ pc.1.set :=
  View.cover_of_tiled [⟨rO3, p3⟩, ⟨rO2, p2⟩, ⟨rO1, p1⟩, ⟨rO0, p0⟩] S512x128.size (by rfl) y

/-! ## The body's triple -/

set_option maxHeartbeats 1000000 in
/-- The body on whole staging buffers, the five inputs' at read contents and the output's at anything, runs to the
    continuation with the inputs' as they were and the output's at `outBlock` of the inputs': the loads of the output
    buffer that precede each store are never used, and the four stores cover it. -/
theorem sound_kernel (c : Dev nD) (E : Set ℕ) (i : grid0.Coords)
    (arg1 : Memref sig .tc .vmem S512x1000 .f32) (harg1 : arg1.IsWhole) (arg2 : Memref sig .tc .vmem S512x1000 .f32) (harg2 : arg2.IsWhole)
    (arg3 : Memref sig .tc .vmem S512x1000 .f32) (harg3 : arg3.IsWhole) (arg4 : Memref sig .tc .vmem S512x1000 .f32) (harg4 : arg4.IsWhole)
    (arg5 : Memref sig .tc .vmem S128x1000 .f32) (harg5 : arg5.IsWhole) (arg6 : Memref sig .tc .vmem S2048x128 .f32) (harg6 : arg6.IsWhole)
    (x0 x1 x2 x3 : Vec F S512x1000 .f32) (xw : Vec F S128x1000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xw ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xw
            ∗ owns (c : Thread nD τ) arg6 fullShare (outBlock x0 x1 x2 x3 xw)) -∗ K ⟨⟩))
      ⊢ wp frame (wpE (defs₀ (F := F)) Variants.none c none) E
          (cc0__matmul_block i arg1 harg1 arg2 harg2 arg3 harg3 arg4 harg4 arg5 harg5 arg6 harg6) K := by
  simp only [cc0__matmul_block_eq_skeleton]; unfold cc0__matmul_block_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _ _ _ _)

/-! ## The pipeline's proof data -/

/-- The proof data on core c: the arrays as launched; after the body at point t each input's buffer at its block and
    the output's at `outBlock` of the five blocks; the invariant the scoped buffers that are no staging buffer (there
    is none); nothing owed. The row matrix's array is read by four windows: each holds a quarter of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d
theorem before_4 (c : Dev nD) (t : Fin cfg0.N) (d) : (dats m 0 c).before 4 t d = iblk m c 4 t :=
  before_in4_of m (dats m 0 c) (A_eq m c 4) (after_4 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.BitsRun.lean ====
/-
  The kernel's run, at any float instance. The program is one kernel region and the return. The region's pipeline needs every
  window's array at a share of its own; the row matrix is the array of four input windows, so its one full holding is
  dealt among them in quarters, and the weights' and the result's arrays go to their one window each outright. With the
  body obligation of the previous module, the launch theorem for a kernel without semaphores of its own whose input
  windows share an array gives: every weakly fair execution terminates without a fault, the result array ends at what
  the eight points' write-backs leave in it, and both argument arrays end as launched.
-/
import proofs.«102467_g50440095924883_cont_8to1_c_133_5_alg».proof.Proof.BitsBody
import Idealize.ShloMosaic.Lib.Pipeline.Launch

noncomputable section

namespace Cert.Kernel.Run

open Cert.Kernel Cert.Kernel.Gen Cert.Kernel.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer held outright is four quarter holdings of it at the same contents. -/
theorem quarters (ℓ : Loc nD τ sig) (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  iintro H
  ihave H := (pointsTo_share (PosShare.mem_left_op_right fullShare)).1 $$ H
  icases H with ⟨Hl, Hr⟩
  ihave Hl := (pointsTo_share (PosShare.mem_left_op_right fullShare.left)).1 $$ Hl
  ihave Hr := (pointsTo_share (PosShare.mem_left_op_right fullShare.right)).1 $$ Hr
  icases Hl with ⟨Hll, Hlr⟩
  icases Hr with ⟨Hrl, Hrr⟩
  isplitl [Hll]; · iexact Hll
  isplitl [Hlr]; · iexact Hlr
  isplitl [Hrl]; · iexact Hrl
  iexact Hrr

/-- The buffers behind the windows' arrays are the row matrix, the weights and the result. -/
theorem bigSep_arrs {M : Type} [URA M] (Φ : Ref sig .tc → sProp M) :
    bigSep (Finset.univ.image (Pipeline.arrRef spec0)) Φ = iprop(Φ main_arg0 ∗ Φ main_arg1 ∗ Φ main_v0) :=
  bigSep_eq_bigSepL_of_eq [main_arg0, main_arg1, main_v0] (by decide) (by decide) Φ

theorem hsplit (c : Dev nD) :
    (Pipeline.arrBufs spec0 c (V m c) : sProp 𝕄) ⊢ (dats m 0 c).arrays ((dats m 0 c).arrAt · 0) := by
  unfold Dat.arrays Pipeline.arrBufs
  rw [bigSep_W0, bigSep_arrs]
  rw [(arr_whole0 0).set_eq_univ, (arr_whole0 4).set_eq_univ, (arr_whole0 5).set_eq_univ]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl]
  iintro ⟨Hx, Hw, Ho⟩
  ihave Hx := (quarters _ _) $$ Hx
  icases Hx with ⟨H0, H1, H2, H3⟩
  isplitl [H0]; · iexact H0
  isplitl [H1]; · iexact H1
  isplitl [H2]; · iexact H2
  isplitl [H3]; · iexact H3
  isplitl [Hw]; · iexact Hw
  iexact Ho

/-- At the compiled mesh, for any float values, from any memory with zero counters: every weakly fair execution of the
    program terminates; the result array ends at what the write-backs of the eight points leave in it, and the two
    argument arrays end as launched. -/
theorem run_main : θ_run defs (onTc (τ := τ) (main (F := F))) (s₀ m ρ) (fun r => ∀ c : Dev nD,
      r.2.mem ((c : Thread nD τ).loc main_v0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main fun c => (main_chain c).trans rfl)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun s h c => ⟨(h c).1 5,
      ((h c).1 0).trans (((dats m 0 c).arrAt_in 0 rfl _).trans (A_eq m c 0)),
      ((h c).1 4).trans (((dats m 0 c).arrAt_in 4 rfl _).trans (A_eq m c 4))⟩)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Run

end
-- ==== Proof.IdealBody.lean ====
/-
  The kernel, one grid point at a time, at any float instance. The grid has eight points; at point t the four input windows on the
  row matrix hold its row blocks 4t, 4t+1, 4t+2, 4t+3 (512 rows of 1000 entries each), the fifth window holds the whole
  weight matrix (128 rows of 1000 entries), and the body writes, for s = 0..3, the product of row block 4t+s with the
  transposed weights into rows 512 s .. 512 s + 511 of the 2048-row output block t. The four stores tile the output
  block, so what the block holds after the body is a function of the five input blocks alone. This module states that
  function, proves the body's triple by symbolic execution, and packages it as the pipeline's proof data: every input
  window leaves its block in place, the output window leaves the four products laid one under the other, nothing is
  owed, and the row matrix's array, read through four windows, is held a quarter share by each.
-/
import proofs.«102467_g50440095924883_cont_8to1_c_133_5_alg».proof.Proof.Gen.KernelIdeal.Launch
import proofs.«102467_g50440095924883_cont_8to1_c_133_5_alg».proof.Proof.Gen.KernelIdeal.Skeleton
import proofs.«102467_g50440095924883_cont_8to1_c_133_5_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- The program is the region alone, so the region finds every array as launched. -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window whose body leaves its block in place holds its block at every point, fetched there or not: a point
    that does not fetch has the block index of the point before (the weights' window is fetched once, at the first
    point, and keeps its one block). One statement per input window: a window's cut block is its block by computation
    at a literal window only. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S512x1000 := Rect.unit (s := S512x1000) ![0, 0] S512x1000.size inb_S512x1000_S512x1000_0_0
abbrev rW : Rect S128x1000 := Rect.unit (s := S128x1000) ![0, 0] S128x1000.size inb_S128x1000_S128x1000_0_0
abbrev rO0 : Rect S2048x128 := Rect.unit (s := S2048x128) ![0, 0] S512x128.size inb_S2048x128_S512x128_0_0
abbrev rO1 : Rect S2048x128 := Rect.unit (s := S2048x128) ![512, 0] S512x128.size inb_S2048x128_S512x128_512_0
abbrev rO2 : Rect S2048x128 := Rect.unit (s := S2048x128) ![1024, 0] S512x128.size inb_S2048x128_S512x128_1024_0
abbrev rO3 : Rect S2048x128 := Rect.unit (s := S2048x128) ![1536, 0] S512x128.size inb_S2048x128_S512x128_1536_0

/-! ## What the body leaves in the output block -/

/-- The output block after the body, from the five input blocks: its four stores, the last first; store s holds the
    product of the s-th row block with the transposed weights. -/
def outBlock (x0 x1 x2 x3 : Vec F S512x1000 .f32) (xw : Vec F S128x1000 .f32) : Vec F S2048x128 .f32 :=
  View.canon [⟨rO3, k0_pay4 (View.ld x3 rX) (View.ld xw rW)⟩, ⟨rO2, k0_pay3 (View.ld x2 rX) (View.ld xw rW)⟩,
    ⟨rO1, k0_pay2 (View.ld x1 rX) (View.ld xw rW)⟩, ⟨rO0, k0_pay1 (View.ld x0 rX) (View.ld xw rW)⟩]

/-- The four stores tile the 2048 rows in blocks of 512, so they cover the output block. -/
theorem outCover (p3 p2 p1 p0 : Vec F S512x128 .f32) (y : S2048x128.Idx) :
    ∃ pc ∈ ([⟨rO3, p3⟩, ⟨rO2, p2⟩, ⟨rO1, p1⟩, ⟨rO0, p0⟩] : List (View.Piece (Elt F) S2048x128 .f32)), y ∈ pc.1.set :=
  View.cover_of_tiled [⟨rO3, p3⟩, ⟨rO2, p2⟩, ⟨rO1, p1⟩, ⟨rO0, p0⟩] S512x128.size (by rfl) y

/-! ## The body's triple -/

set_option maxHeartbeats 1000000 in
/-- The body on whole staging buffers, the five inputs' at read contents and the output's at anything, runs to the
    continuation with the inputs' as they were and the output's at `outBlock` of the inputs': the loads of the output
    buffer that precede each store are never used, and the four stores cover it. -/
theorem sound_kernel (c : Dev nD) (E : Set ℕ) (i : grid0.Coords)
    (arg1 : Memref sig .tc .vmem S512x1000 .f32) (harg1 : arg1.IsWhole) (arg2 : Memref sig .tc .vmem S512x1000 .f32) (harg2 : arg2.IsWhole)
    (arg3 : Memref sig .tc .vmem S512x1000 .f32) (harg3 : arg3.IsWhole) (arg4 : Memref sig .tc .vmem S512x1000 .f32) (harg4 : arg4.IsWhole)
    (arg5 : Memref sig .tc .vmem S128x1000 .f32) (harg5 : arg5.IsWhole) (arg6 : Memref sig .tc .vmem S2048x128 .f32) (harg6 : arg6.IsWhole)
    (x0 x1 x2 x3 : Vec F S512x1000 .f32) (xw : Vec F S128x1000 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xw ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare xw
            ∗ owns (c : Thread nD τ) arg6 fullShare (outBlock x0 x1 x2 x3 xw)) -∗ K ⟨⟩))
      ⊢ wp frame (wpE (defs₀ (F := F)) Variants.none c none) E
          (cc0__matmul_block i arg1 harg1 arg2 harg2 arg3 harg3 arg4 harg4 arg5 harg5 arg6 harg6) K := by
  simp only [cc0__matmul_block_eq_skeleton]; unfold cc0__matmul_block_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _ _ _ _)

/-! ## The pipeline's proof data -/

/-- The proof data on core c: the arrays as launched; after the body at point t each input's buffer at its block and
    the output's at `outBlock` of the five blocks; the invariant the scoped buffers that are no staging buffer (there
    is none); nothing owed. The row matrix's array is read by four windows: each holds a quarter of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outBlock (iblk m c 0 t) (iblk m c 1 t) (iblk m c 2 t) (iblk m c 3 t) (iblk m c 4 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d
theorem before_4 (c : Dev nD) (t : Fin cfg0.N) (d) : (dats m 0 c).before 4 t d = iblk m c 4 t :=
  before_in4_of m (dats m 0 c) (A_eq m c 4) (after_4 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.IdealRun.lean ====
/-
  The kernel's run, at any float instance. The program is one kernel region and the return. The region's pipeline needs every
  window's array at a share of its own; the row matrix is the array of four input windows, so its one full holding is
  dealt among them in quarters, and the weights' and the result's arrays go to their one window each outright. With the
  body obligation of the previous module, the launch theorem for a kernel without semaphores of its own whose input
  windows share an array gives: every weakly fair execution terminates without a fault, the result array ends at what
  the eight points' write-backs leave in it, and both argument arrays end as launched.
-/
import proofs.«102467_g50440095924883_cont_8to1_c_133_5_alg».proof.Proof.IdealBody
import Idealize.ShloMosaic.Lib.Pipeline.Launch

noncomputable section

namespace Cert.KernelIdeal.Run

open Cert.KernelIdeal Cert.KernelIdeal.Gen Cert.KernelIdeal.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer held outright is four quarter holdings of it at the same contents. -/
theorem quarters (ℓ : Loc nD τ sig) (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  iintro H
  ihave H := (pointsTo_share (PosShare.mem_left_op_right fullShare)).1 $$ H
  icases H with ⟨Hl, Hr⟩
  ihave Hl := (pointsTo_share (PosShare.mem_left_op_right fullShare.left)).1 $$ Hl
  ihave Hr := (pointsTo_share (PosShare.mem_left_op_right fullShare.right)).1 $$ Hr
  icases Hl with ⟨Hll, Hlr⟩
  icases Hr with ⟨Hrl, Hrr⟩
  isplitl [Hll]; · iexact Hll
  isplitl [Hlr]; · iexact Hlr
  isplitl [Hrl]; · iexact Hrl
  iexact Hrr

/-- The buffers behind the windows' arrays are the row matrix, the weights and the result. -/
theorem bigSep_arrs {M : Type} [URA M] (Φ : Ref sig .tc → sProp M) :
    bigSep (Finset.univ.image (Pipeline.arrRef spec0)) Φ = iprop(Φ main_arg0 ∗ Φ main_arg1 ∗ Φ main_v0) :=
  bigSep_eq_bigSepL_of_eq [main_arg0, main_arg1, main_v0] (by decide) (by decide) Φ

theorem hsplit (c : Dev nD) :
    (Pipeline.arrBufs spec0 c (V m c) : sProp 𝕄) ⊢ (dats m 0 c).arrays ((dats m 0 c).arrAt · 0) := by
  unfold Dat.arrays Pipeline.arrBufs
  rw [bigSep_W0, bigSep_arrs]
  rw [(arr_whole0 0).set_eq_univ, (arr_whole0 4).set_eq_univ, (arr_whole0 5).set_eq_univ]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl]
  iintro ⟨Hx, Hw, Ho⟩
  ihave Hx := (quarters _ _) $$ Hx
  icases Hx with ⟨H0, H1, H2, H3⟩
  isplitl [H0]; · iexact H0
  isplitl [H1]; · iexact H1
  isplitl [H2]; · iexact H2
  isplitl [H3]; · iexact H3
  isplitl [Hw]; · iexact Hw
  iexact Ho

/-- At the compiled mesh, for any float values, from any memory with zero counters: every weakly fair execution of the
    program terminates; the result array ends at what the write-backs of the eight points leave in it, and the two
    argument arrays end as launched. -/
theorem run_main : θ_run defs (onTc (τ := τ) (main (F := F))) (s₀ m ρ) (fun r => ∀ c : Dev nD,
      r.2.mem ((c : Thread nD τ).loc main_v0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main fun c => (main_chain c).trans rfl)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun s h c => ⟨(h c).1 5,
      ((h c).1 0).trans (((dats m 0 c).arrAt_in 0 rfl _).trans (A_eq m c 0)),
      ((h c).1 4).trans (((dats m 0 c).arrAt_in 4 rfl _).trans (A_eq m c 4))⟩)

/-- The frame: the program runs to the end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Run

end
-- ==== Proof.IdealProduct.lean ====
/-
  One product of the idealized kernel read at an index: a block of 512 rows against the 128 weight rows, both of
  1000 entries, contracted over the entries into a zero accumulator, is at (p, n) the sum over k of
  block(p, k) · weights(n, k). All four stores of the body hold this product of their own row block.
-/
import proofs.«102467_g50440095924883_cont_8to1_c_133_5_alg».proof.Proof.Gen.KernelIdeal.Skeleton
import Idealize.ShloMosaic.Lib.ValueIdx
import Idealize.ShloMosaic.PureOps.Ideal.Laws

noncomputable section

namespace Cert.KernelIdeal.Product

open Cert.KernelIdeal Cert.KernelIdeal.Gen Idealize.ShloMosaic

/-- The left operand's row axis follows the output's row; -/
theorem lhs_ax0 (i : S512x128.Idx) (q : dot_S512x1000_S128x1000_S512x128_1_1_0_0_n_n.contr.Idx) :
    (dot_S512x1000_S128x1000_S512x128_1_1_0_0_n_n.lhsIdx i q 0).val = (i 0).val := by
  unfold DotDims.lhsIdx
  rw [dif_neg (show ¬(0 : Fin S512x1000.rank) ∈ dot_S512x1000_S128x1000_S512x128_1_1_0_0_n_n.lhsBatch by decide), dif_pos (show (0 : Fin S512x1000.rank) ∈ dot_S512x1000_S128x1000_S512x128_1_1_0_0_n_n.lhsNonContracting by decide)]
  rfl
/-- its entry axis is the contracted one; -/
theorem lhs_ax1 (i : S512x128.Idx) (q : dot_S512x1000_S128x1000_S512x128_1_1_0_0_n_n.contr.Idx) :
    (dot_S512x1000_S128x1000_S512x128_1_1_0_0_n_n.lhsIdx i q 1).val = (q ⟨0, by decide⟩).val :=
  dot_S512x1000_S128x1000_S512x128_1_1_0_0_n_n.lhsIdx_val_of_single rfl i q
/-- the right operand's row axis follows the output's column; -/
theorem rhs_ax0 (i : S512x128.Idx) (q : dot_S512x1000_S128x1000_S512x128_1_1_0_0_n_n.contr.Idx) :
    (dot_S512x1000_S128x1000_S512x128_1_1_0_0_n_n.rhsIdx i q 0).val = (i 1).val := by
  unfold DotDims.rhsIdx
  rw [dif_neg (show ¬(0 : Fin S128x1000.rank) ∈ dot_S512x1000_S128x1000_S512x128_1_1_0_0_n_n.rhsBatch by decide), dif_pos (show (0 : Fin S128x1000.rank) ∈ dot_S512x1000_S128x1000_S512x128_1_1_0_0_n_n.rhsNonContracting by decide)]
  rfl
/-- and its entry axis is the contracted one. -/
theorem rhs_ax1 (i : S512x128.Idx) (q : dot_S512x1000_S128x1000_S512x128_1_1_0_0_n_n.contr.Idx) :
    (dot_S512x1000_S128x1000_S512x128_1_1_0_0_n_n.rhsIdx i q 1).val = (q ⟨0, by decide⟩).val :=
  dot_S512x1000_S128x1000_S512x128_1_1_0_0_n_n.rhsIdx_val_of_single rfl i q

/-- Where the left operand is read for output index i and contraction position k, -/
abbrev lidx (i : S512x128.Idx) (k : Fin 1000) : S512x1000.Idx := fun a => match a with
  | ⟨0, _⟩ => ⟨(i 0).val, (i 0).isLt⟩
  | ⟨1, _⟩ => ⟨k.val, k.isLt⟩
/-- and the right one. -/
abbrev ridx (i : S512x128.Idx) (k : Fin 1000) : S128x1000.Idx := fun a => match a with
  | ⟨0, _⟩ => ⟨(i 1).val, (i 1).isLt⟩
  | ⟨1, _⟩ => ⟨k.val, k.isLt⟩

/-- The product into a zero accumulator, at an index, as a sum over the 1000 shared entries. -/
theorem product_apply (x : Vec Ideal S512x1000 .f32) (w : Vec Ideal S128x1000 .f32) (i : S512x128.Idx) :
    matmul (F := Ideal) (φ₁ := .f32) (φ₂ := .f32) dot_S512x1000_S128x1000_S512x128_1_1_0_0_n_n none x w (constant S512x128 .f32 0x00000000#32) i
      = ∑ k : Fin 1000, x (lidx i k) * w (ridx i k) := by
  simp only [matmul]
  rw [Ideal.matmul_constant_zero_apply, ← Equiv.sum_comp (ValueIdx.contrEquiv1 dot_S512x1000_S128x1000_S512x128_1_1_0_0_n_n 1000 rfl rfl).symm]
  refine Finset.sum_congr rfl fun k _ => ?_
  have hk := ValueIdx.contrEquiv1_symm_val dot_S512x1000_S128x1000_S512x128_1_1_0_0_n_n 1000 rfl rfl k
  have el : dot_S512x1000_S128x1000_S512x128_1_1_0_0_n_n.lhsIdx i ((ValueIdx.contrEquiv1 dot_S512x1000_S128x1000_S512x128_1_1_0_0_n_n 1000 rfl rfl).symm k) = lidx i k := funext fun a => Fin.ext (by
    match a with
    | ⟨0, _⟩ => exact lhs_ax0 _ _
    | ⟨1, _⟩ => exact (lhs_ax1 _ _).trans hk)
  have er : dot_S512x1000_S128x1000_S512x128_1_1_0_0_n_n.rhsIdx i ((ValueIdx.contrEquiv1 dot_S512x1000_S128x1000_S512x128_1_1_0_0_n_n 1000 rfl rfl).symm k) = ridx i k := funext fun a => Fin.ext (by
    match a with
    | ⟨0, _⟩ => exact rhs_ax0 _ _
    | ⟨1, _⟩ => exact (rhs_ax1 _ _).trans hk)
  rw [el, er]

theorem pay1_apply (x : Vec Ideal S512x1000 .f32) (w : Vec Ideal S128x1000 .f32) (i : S512x128.Idx) :
    k0_pay1 (F := Ideal) x w i = ∑ k : Fin 1000, x (lidx i k) * w (ridx i k) := product_apply x w i
theorem pay2_apply (x : Vec Ideal S512x1000 .f32) (w : Vec Ideal S128x1000 .f32) (i : S512x128.Idx) :
    k0_pay2 (F := Ideal) x w i = ∑ k : Fin 1000, x (lidx i k) * w (ridx i k) := product_apply x w i
theorem pay3_apply (x : Vec Ideal S512x1000 .f32) (w : Vec Ideal S128x1000 .f32) (i : S512x128.Idx) :
    k0_pay3 (F := Ideal) x w i = ∑ k : Fin 1000, x (lidx i k) * w (ridx i k) := product_apply x w i
theorem pay4_apply (x : Vec Ideal S512x1000 .f32) (w : Vec Ideal S128x1000 .f32) (i : S512x128.Idx) :
    k0_pay4 (F := Ideal) x w i = ∑ k : Fin 1000, x (lidx i k) * w (ridx i k) := product_apply x w i

end Cert.KernelIdeal.Product

end
-- ==== Proof.Spec.lean ====
/-
  The common value of the two programs: the row matrix times the transposed weights. Entry (r, n) of the result is the
  sum over the shared axis k of x(r, k) · w(n, k), on the extended reals.
-/
import Idealize.ShloMosaic.PureOps.Ideal
import Idealize.ShloMosaic.Lib.ValueIdx

noncomputable section

namespace Cert.Spec

open Idealize.ShloMosaic

abbrev SX : Shape := ⟨2, ![16384, 1000]⟩
abbrev SW : Shape := ⟨2, ![128, 1000]⟩
abbrev SY : Shape := ⟨2, ![16384, 128]⟩

/-- Row r of the input against row n of the weights. -/
def rowDot (x : (⟨SX, .f32⟩ : BufTy).Contents (Elt Ideal)) (w : (⟨SW, .f32⟩ : BufTy).Contents (Elt Ideal)) :
    (⟨SY, .f32⟩ : BufTy).Contents (Elt Ideal) :=
  fun i => ∑ k : Fin 1000, x (ValueIdx.ix2 (⟨(i 0).val, (i 0).isLt⟩ : Fin 16384) k) * w (ValueIdx.ix2 (⟨(i 1).val, (i 1).isLt⟩ : Fin 128) k)

end Cert.Spec

end
-- ==== Proof.IdealWhole.lean ====
/-
  The idealized kernel's result array as one function of its arguments. Point t of the grid writes back the 2048-row
  block t of the result. Inside it, store s holds rows 512 s .. 512 s + 511, each the product of a row of row block
  4t+s with the weights: row 2048 t + 512 s + p of the result is row 512 (4t+s) + p of the input against every weight
  row. So every write-back is a block of ONE whole-array function, the row-by-row product of the specification; the
  eight blocks tile the 16384 rows, and the array ends holding that function.
-/
import proofs.«102467_g50440095924883_cont_8to1_c_133_5_alg».proof.Proof.IdealRun
import proofs.«102467_g50440095924883_cont_8to1_c_133_5_alg».proof.Proof.IdealProduct
import proofs.«102467_g50440095924883_cont_8to1_c_133_5_alg».proof.Proof.Spec
import Idealize.ShloMosaic.Lib.Pipeline.Value

set_option maxRecDepth 16384

noncomputable section

namespace Cert.KernelIdeal.Whole

open Cert.KernelIdeal Cert.KernelIdeal.Gen Cert.KernelIdeal.Body Cert.KernelIdeal.Product
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

theorem idx_facts : ∀ t : Fin cfg0.N,
    win0_0.index t (0 : Fin 2) = 4 * win0_5.index t (0 : Fin 2) + 0 ∧ win0_0.index t (1 : Fin 2) = 0
    ∧ win0_1.index t (0 : Fin 2) = 4 * win0_5.index t (0 : Fin 2) + 1 ∧ win0_1.index t (1 : Fin 2) = 0
    ∧ win0_2.index t (0 : Fin 2) = 4 * win0_5.index t (0 : Fin 2) + 2 ∧ win0_2.index t (1 : Fin 2) = 0
    ∧ win0_3.index t (0 : Fin 2) = 4 * win0_5.index t (0 : Fin 2) + 3 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The row matrix and the weights as the region finds them, at their literal types. -/
abbrev xarr (c : Dev nD) : (⟨S16384x1000, .f32⟩ : BufTy).Contents (Elt Ideal) := V m c main_arg0
abbrev warr (c : Dev nD) : (⟨S128x1000, .f32⟩ : BufTy).Contents (Elt Ideal) := V m c main_arg1

/-- The whole result on core c. -/
abbrev G (c : Dev nD) : (⟨S16384x128, .f32⟩ : BufTy).Contents (Elt Ideal) :=
  Cert.Spec.rowDot (xarr m c) (warr m c)

/-- Store 0 of point t: rows 0 .. 511 of the output block are rows of row block 4t+0. -/
theorem piece0 (c : Dev nD) (t : Fin cfg0.N) (x : rO0.shape.Idx) :
    k0_pay1 (F := Ideal) (View.ld (iblk m c 0 t) rX) (View.ld (iblk m c 4 t) rW) x
      = G m c (((cfg0.win 5).blk t).view.emb (rO0.emb x)) := by
  simp only [View.ld_unit_zero (S := S512x1000) hz, View.ld_unit_zero (S := S128x1000) hz]
  rw [pay1_apply]
  unfold G Cert.Spec.rowDot
  refine Finset.sum_congr rfl fun k _ => ?_
  unfold iblk
  obtain ⟨e00, e01, e10, e11, e20, e21, e30, e31, e40, e41, e50, e51⟩ := idx_facts t
  show xarr m c (((cfg0.win 0).blk t).view.emb (lidx x k)) * warr m c (((cfg0.win 4).blk t).view.emb (ridx x k)) = _
  have hx : ((cfg0.win 0).blk t).view.emb (lidx x k)
      = ValueIdx.ix2 (⟨((((cfg0.win 5).blk t).view.emb (rO0.emb x)) 0).val, ((((cfg0.win 5).blk t).view.emb (rO0.emb x)) 0).isLt⟩ : Fin 16384) k := by
    funext a; apply Fin.ext
    match a with
    | ⟨0, _⟩ => show win0_0.index t (0 : Fin 2) * 512 + 1 * (x 0).val = win0_5.index t (0 : Fin 2) * 2048 + 1 * (0 + 1 * (x 0).val); omega
    | ⟨1, _⟩ => show win0_0.index t (1 : Fin 2) * 1000 + 1 * k.val = k.val; omega
  have hw : ((cfg0.win 4).blk t).view.emb (ridx x k)
      = ValueIdx.ix2 (⟨((((cfg0.win 5).blk t).view.emb (rO0.emb x)) 1).val, ((((cfg0.win 5).blk t).view.emb (rO0.emb x)) 1).isLt⟩ : Fin 128) k := by
    funext a; apply Fin.ext
    match a with
    | ⟨0, _⟩ => show win0_4.index t (0 : Fin 2) * 128 + 1 * (x 1).val = win0_5.index t (1 : Fin 2) * 128 + 1 * (0 + 1 * (x 1).val); omega
    | ⟨1, _⟩ => show win0_4.index t (1 : Fin 2) * 1000 + 1 * k.val = k.val; omega
  rw [hx, hw]

/-- Store 1 of point t: rows 512 .. 1023 of the output block are rows of row block 4t+1. -/
theorem piece1 (c : Dev nD) (t : Fin cfg0.N) (x : rO1.shape.Idx) :
    k0_pay2 (F := Ideal) (View.ld (iblk m c 1 t) rX) (View.ld (iblk m c 4 t) rW) x
      = G m c (((cfg0.win 5).blk t).view.emb (rO1.emb x)) := by
  simp only [View.ld_unit_zero (S := S512x1000) hz, View.ld_unit_zero (S := S128x1000) hz]
  rw [pay2_apply]
  unfold G Cert.Spec.rowDot
  refine Finset.sum_congr rfl fun k _ => ?_
  unfold iblk
  obtain ⟨e00, e01, e10, e11, e20, e21, e30, e31, e40, e41, e50, e51⟩ := idx_facts t
  show xarr m c (((cfg0.win 1).blk t).view.emb (lidx x k)) * warr m c (((cfg0.win 4).blk t).view.emb (ridx x k)) = _
  have hx : ((cfg0.win 1).blk t).view.emb (lidx x k)
      = ValueIdx.ix2 (⟨((((cfg0.win 5).blk t).view.emb (rO1.emb x)) 0).val, ((((cfg0.win 5).blk t).view.emb (rO1.emb x)) 0).isLt⟩ : Fin 16384) k := by
    funext a; apply Fin.ext
    match a with
    | ⟨0, _⟩ => show win0_1.index t (0 : Fin 2) * 512 + 1 * (x 0).val = win0_5.index t (0 : Fin 2) * 2048 + 1 * (512 + 1 * (x 0).val); omega
    | ⟨1, _⟩ => show win0_1.index t (1 : Fin 2) * 1000 + 1 * k.val = k.val; omega
  have hw : ((cfg0.win 4).blk t).view.emb (ridx x k)
      = ValueIdx.ix2 (⟨((((cfg0.win 5).blk t).view.emb (rO1.emb x)) 1).val, ((((cfg0.win 5).blk t).view.emb (rO1.emb x)) 1).isLt⟩ : Fin 128) k := by
    funext a; apply Fin.ext
    match a with
    | ⟨0, _⟩ => show win0_4.index t (0 : Fin 2) * 128 + 1 * (x 1).val = win0_5.index t (1 : Fin 2) * 128 + 1 * (0 + 1 * (x 1).val); omega
    | ⟨1, _⟩ => show win0_4.index t (1 : Fin 2) * 1000 + 1 * k.val = k.val; omega
  rw [hx, hw]

/-- Store 2 of point t: rows 1024 .. 1535 of the output block are rows of row block 4t+2. -/
theorem piece2 (c : Dev nD) (t : Fin cfg0.N) (x : rO2.shape.Idx) :
    k0_pay3 (F := Ideal) (View.ld (iblk m c 2 t) rX) (View.ld (iblk m c 4 t) rW) x
      = G m c (((cfg0.win 5).blk t).view.emb (rO2.emb x)) := by
  simp only [View.ld_unit_zero (S := S512x1000) hz, View.ld_unit_zero (S := S128x1000) hz]
  rw [pay3_apply]
  unfold G Cert.Spec.rowDot
  refine Finset.sum_congr rfl fun k _ => ?_
  unfold iblk
  obtain ⟨e00, e01, e10, e11, e20, e21, e30, e31, e40, e41, e50, e51⟩ := idx_facts t
  show xarr m c (((cfg0.win 2).blk t).view.emb (lidx x k)) * warr m c (((cfg0.win 4).blk t).view.emb (ridx x k)) = _
  have hx : ((cfg0.win 2).blk t).view.emb (lidx x k)
      = ValueIdx.ix2 (⟨((((cfg0.win 5).blk t).view.emb (rO2.emb x)) 0).val, ((((cfg0.win 5).blk t).view.emb (rO2.emb x)) 0).isLt⟩ : Fin 16384) k := by
    funext a; apply Fin.ext
    match a with
    | ⟨0, _⟩ => show win0_2.index t (0 : Fin 2) * 512 + 1 * (x 0).val = win0_5.index t (0 : Fin 2) * 2048 + 1 * (1024 + 1 * (x 0).val); omega
    | ⟨1, _⟩ => show win0_2.index t (1 : Fin 2) * 1000 + 1 * k.val = k.val; omega
  have hw : ((cfg0.win 4).blk t).view.emb (ridx x k)
      = ValueIdx.ix2 (⟨((((cfg0.win 5).blk t).view.emb (rO2.emb x)) 1).val, ((((cfg0.win 5).blk t).view.emb (rO2.emb x)) 1).isLt⟩ : Fin 128) k := by
    funext a; apply Fin.ext
    match a with
    | ⟨0, _⟩ => show win0_4.index t (0 : Fin 2) * 128 + 1 * (x 1).val = win0_5.index t (1 : Fin 2) * 128 + 1 * (0 + 1 * (x 1).val); omega
    | ⟨1, _⟩ => show win0_4.index t (1 : Fin 2) * 1000 + 1 * k.val = k.val; omega
  rw [hx, hw]

/-- Store 3 of point t: rows 1536 .. 2047 of the output block are rows of row block 4t+3. -/
theorem piece3 (c : Dev nD) (t : Fin cfg0.N) (x : rO3.shape.Idx) :
    k0_pay4 (F := Ideal) (View.ld (iblk m c 3 t) rX) (View.ld (iblk m c 4 t) rW) x
      = G m c (((cfg0.win 5).blk t).view.emb (rO3.emb x)) := by
  simp only [View.ld_unit_zero (S := S512x1000) hz, View.ld_unit_zero (S := S128x1000) hz]
  rw [pay4_apply]
  unfold G Cert.Spec.rowDot
  refine Finset.sum_congr rfl fun k _ => ?_
  unfold iblk
  obtain ⟨e00, e01, e10, e11, e20, e21, e30, e31, e40, e41, e50, e51⟩ := idx_facts t
  show xarr m c (((cfg0.win 3).blk t).view.emb (lidx x k)) * warr m c (((cfg0.win 4).blk t).view.emb (ridx x k)) = _
  have hx : ((cfg0.win 3).blk t).view.emb (lidx x k)
      = ValueIdx.ix2 (⟨((((cfg0.win 5).blk t).view.emb (rO3.emb x)) 0).val, ((((cfg0.win 5).blk t).view.emb (rO3.emb x)) 0).isLt⟩ : Fin 16384) k := by
    funext a; apply Fin.ext
    match a with
    | ⟨0, _⟩ => show win0_3.index t (0 : Fin 2) * 512 + 1 * (x 0).val = win0_5.index t (0 : Fin 2) * 2048 + 1 * (1536 + 1 * (x 0).val); omega
    | ⟨1, _⟩ => show win0_3.index t (1 : Fin 2) * 1000 + 1 * k.val = k.val; omega
  have hw : ((cfg0.win 4).blk t).view.emb (ridx x k)
      = ValueIdx.ix2 (⟨((((cfg0.win 5).blk t).view.emb (rO3.emb x)) 1).val, ((((cfg0.win 5).blk t).view.emb (rO3.emb x)) 1).isLt⟩ : Fin 128) k := by
    funext a; apply Fin.ext
    match a with
    | ⟨0, _⟩ => show win0_4.index t (0 : Fin 2) * 128 + 1 * (x 1).val = win0_5.index t (1 : Fin 2) * 128 + 1 * (0 + 1 * (x 1).val); omega
    | ⟨1, _⟩ => show win0_4.index t (1 : Fin 2) * 1000 + 1 * k.val = k.val; omega
  rw [hx, hw]

/-- What point t writes back is block t of the whole result. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after_5]
  unfold outBlock
  funext y
  exact View.canon_apply_of_pieces (fun y => G m c (((cfg0.win 5).blk t).view.emb y)) _
    (by
      intro p hp
      simp only [List.mem_cons, List.mem_singleton, List.not_mem_nil, or_false] at hp
      rcases hp with rfl | rfl | rfl | rfl
      · exact piece3 m c t
      · exact piece2 m c t
      · exact piece1 m c t
      · exact piece0 m c t) y (outCover _ _ _ _ y)

/-- An index of the result is in point t's block iff each coordinate is in the block's range on its axis. -/
theorem mem_blk (t : Fin cfg0.N) (i : S16384x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v0).slice (win0_5.rect t)).set ↔ _
  rw [View.set_slice_whole, Rect.mem_set_unit]
  exact Iff.rfl

/-- Every one of the eight row blocks is some point's. -/
theorem idx_onto : ∀ q : Fin 8, ∃ t : Fin cfg0.N, win0_5.index t = ![q.val, 0] :=
  (by decide +kernel : ∀ q : Fin 8, ∃ t : Fin grid0.N, win0_5.index t = ![q.val, 0])

/-- Row r of the result lies in the block of point r / 2048, which is written back. -/
theorem cover (i : S16384x128.Idx) : ∃ t : Fin cfg0.N, (cfg0.win 5).flush t = true ∧ i ∈ ((cfg0.win 5).blk t).view.set := by
  have hi0 : (i 0).val < 16384 := (i 0).isLt
  have hi1 : (i 1).val < 128 := (i 1).isLt
  obtain ⟨t, ht⟩ := idx_onto ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 128 ≤ (i 1).val ∧ (i 1).val < win0_5.index t (1 : Fin 2) * 128 + 128; omega

/-- The result array after the run is the row-by-row product of the two arguments. -/
theorem final (c : Dev nD) : (dats m 0 c).arrAt 5 cfg0.N = G m c :=
  (dats m 0 c).arrAt_eq_of_cover 5 (G m c) (fun t _ => flushed_eq m c t) cover

/-- The run, read: the result at the specification's function of the arguments as launched, the arguments unchanged. -/
theorem run : θ_run defs (onTc (τ := τ) (main (F := Ideal))) ⟨m, fun _ => 0, ρ⟩ fun r => ∀ c : Dev nD,
      r.2.mem ((c : Thread nD τ).loc main_v0) = Cert.Spec.rowDot (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Run.run_main m ρ)

end Cert.KernelIdeal.Whole

end
-- ==== Proof.RefValue.lean ====
/-
  The reference at the ideal instance: the transpose of the weights followed by one contraction is, index by index,
  the sum over the shared axis of products of an input row entry and a weight row entry — the transposed weights read
  at (k, n) are the weights at (n, k).
-/
import proofs.«102467_g50440095924883_cont_8to1_c_133_5_alg».proof.Proof.Gen.ReferenceIdeal.Run
import proofs.«102467_g50440095924883_cont_8to1_c_133_5_alg».proof.Proof.Gen.ReferenceIdeal.Read
import proofs.«102467_g50440095924883_cont_8to1_c_133_5_alg».proof.Proof.Spec

noncomputable section

namespace Cert.ReferenceIdeal.RefValue

open Cert.ReferenceIdeal Cert.ReferenceIdeal.Gen Idealize.ShloMosaic Idealize.ShloMosaic.TcCoe Idealize.SL.Sem

/-- The reference's result, as a function of its two arguments, is the row-by-row product. -/
theorem ref_eq (x : (⟨S16384x1000, .f32⟩ : BufTy).Contents (Elt Ideal)) (w : (⟨S128x1000, .f32⟩ : BufTy).Contents (Elt Ideal)) :
    Read.val_main_v1 (F := Ideal) x w = Cert.Spec.rowDot x w := by
  funext i
  rw [Read.val_main_v1_apply]
  unfold Cert.Spec.rowDot
  refine Finset.sum_congr rfl fun k _ => ?_
  rw [Read.val_main_v0_apply]
  have el : Read.lidx_main_v1 i k = ValueIdx.ix2 (⟨(i 0).val, (i 0).isLt⟩ : Fin 16384) k :=
    funext fun a => Fin.ext (by match a with | ⟨0, _⟩ => rfl | ⟨1, _⟩ => rfl)
  have er : Read.idx_main_v0 (Read.ridx_main_v1 i k) = ValueIdx.ix2 (⟨(i 1).val, (i 1).isLt⟩ : Fin 128) k :=
    funext fun a => Fin.ext (by match a with | ⟨0, _⟩ => rfl | ⟨1, _⟩ => rfl)
  rw [el, er]

end Cert.ReferenceIdeal.RefValue

end
-- ==== Proof.lean ====
/-
  The certificate: a kernel that streams the 16384 × 1000 row matrix through four interleaved windows and multiplies
  each 512-row block by the transposed 128 × 1000 weights, against the reference's transpose-and-contract. Both
  compute, at every index (r, n), the sum over k of x(r, k) · w(n, k) on the extended reals; no law beyond reading the
  two sums at the same indices joins them, so the precondition is never opened. The three frames are each program's
  run with the results dropped; the idealization rewrote nothing, so it preserves trivially.
-/
import proofs.«102467_g50440095924883_cont_8to1_c_133_5_alg».proof.Defs
import proofs.«102467_g50440095924883_cont_8to1_c_133_5_alg».proof.Proof.BitsRun
import proofs.«102467_g50440095924883_cont_8to1_c_133_5_alg».proof.Proof.IdealWhole
import proofs.«102467_g50440095924883_cont_8to1_c_133_5_alg».proof.Proof.RefValue
import proofs.«102467_g50440095924883_cont_8to1_c_133_5_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_bits : Cert.frame_Kernel := fun m ρ _ => Cert.Kernel.Run.frame m ρ

theorem frame_ideal : Cert.frame_KernelIdeal := fun m ρ _ => Cert.KernelIdeal.Run.frame m ρ

theorem frame_ref : Cert.frame_ReferenceIdeal := fun m ρ _ =>
  (θ_run Cert.ReferenceIdeal.defs _ _).mono (fun _ h c => (h c).2) (Cert.ReferenceIdeal.Value.run (F := Ideal) m ρ)

/-- From memories that agree on the two arguments, the kernel's result array and the reference's both end at the
    row-by-row product of those arguments. -/
theorem algebraic : Cert.algebraic_KernelIdeal_ReferenceIdeal := by
  intro m ρ m' ρ' _ hagree
  refine ⟨fun c => Cert.Spec.rowDot (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_bits, frame_ideal, frame_ref, trivial, algebraic⟩

end Cert.Proof

end
